-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x256 : Shape := ⟨3, ![128, 1024, 256]⟩
abbrev S_ : Shape := ⟨0, ![]⟩

class Facts : Prop where
  bcast_S_S128x1024x256 : S_.BroadcastsInDim S128x1024x256 (![] : Fin 0 → Fin S128x1024x256.rank)
  reducesTo_S128x1024x256_S_d0_1_2 : S128x1024x256.ReducesTo [0, 1, 2] S_
  h_S_ : 0 < S_.numel

variable [Facts]

def fn {F : FTy → Type} [FloatOps F] (main_arg0 : FVec F S128x1024x256 .f32) : IVec S_ 1 :=
  let main_v0 : FVec F S128x1024x256 .f32 := Host.absf main_arg0
  let main_cst : FVec F S_ .f32 := constant S_ .f32 0x7F800000#32
  let main_v1 : FVec F S128x1024x256 .f32 := broadcastInDim S128x1024x256 ![] bcast_S_S128x1024x256 main_cst
  let main_v2 : IVec S128x1024x256 1 := cmpf .olt main_v0 main_v1
  let main_c : IVec S_ 1 := constantI S_ 1 1#1
  let main_v3 : IVec S_ 1 := (fun x v => Host.reduce IntOp.andi x v reducesTo_S128x1024x256_S_d0_1_2 h_S_) main_v2 main_c
  main_v3
-- ==== Kernel.lean ====
abbrev S128x1024x256 : Shape := ⟨3, ![128, 1024, 256]⟩
abbrev S131072x256 : Shape := ⟨2, ![131072, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 4
  | .vmem => 4
  | .smem => 0
  | _ => 0

abbrev bufTy : (tb : Table) → Fin (tcTables nBuf tb) → BufTy
  | .hbm, ⟨0, _⟩ => ⟨S128x1024x256, .f32⟩
  | .hbm, ⟨1, _⟩ => ⟨S131072x256, .f32⟩
  | .hbm, ⟨2, _⟩ => ⟨S131072x256, .f32⟩
  | .hbm, ⟨3, _⟩ => ⟨S128x1024x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | _, _ => ⟨S128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x1024x256_S131072x256 : S128x1024x256.ShapeCasts S131072x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S4096x256_S4096 : S4096x256.Reduces [1] S4096
  shapeCasts_S4096_S4096x1 : S4096.ShapeCasts S4096x1
  broadcasts_S4096x1_S4096x256 : S4096x1.Broadcasts S4096x256
  shapeCasts_S131072x256_S128x1024x256 : S131072x256.ShapeCasts S128x1024x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)

variable [Facts₀]

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x1024x256 : Shape := ⟨3, ![128, 1024, 256]⟩
abbrev S_ : Shape := ⟨0, ![]⟩
abbrev S128x1024 : Shape := ⟨2, ![128, 1024]⟩
abbrev S128x1024x1 : Shape := ⟨3, ![128, 1024, 1]⟩

abbrev nBuf : Space → Nat
  | .hbm => 6
  | .vmem => 0
  | .smem => 0
  | _ => 0

abbrev bufTy : (tb : Table) → Fin (tcTables nBuf tb) → BufTy
  | .hbm, ⟨0, _⟩ => ⟨S128x1024x256, .f32⟩
  | .hbm, ⟨1, _⟩ => ⟨S_, .f32⟩
  | .hbm, ⟨2, _⟩ => ⟨S128x1024, .f32⟩
  | .hbm, ⟨3, _⟩ => ⟨S128x1024x1, .f32⟩
  | .hbm, ⟨4, _⟩ => ⟨S128x1024x256, .f32⟩
  | .hbm, ⟨5, _⟩ => ⟨S128x1024x256, .f32⟩
  | _, _ => ⟨S128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  reducesTo_S128x1024x256_S128x1024_d2 : S128x1024x256.ReducesTo [2] S128x1024
  h_S_ : 0 < S_.numel
  bcast_S128x1024_S128x1024x1_0_1 : S128x1024.BroadcastsInDim S128x1024x1 (![0, 1] : Fin 2 → Fin S128x1024x1.rank)
  bcast_S128x1024x1_S128x1024x256_0_1_2 : S128x1024x1.BroadcastsInDim S128x1024x256 (![0, 1, 2] : Fin 3 → Fin S128x1024x256.rank)

variable [Facts₀]

class Facts : Prop extends Facts₀ where

variable [Facts]
-- ==== Proof.Spec.lean ====
/-
  The function both programs compute, and the one re-indexing law between their layouts.

  For an array `x` of shape [128, 1024, 256] the result at (b, f, j) is `x (b, f, j) * ∑ k, x (b, f, k)`: each entry
  times the sum of the 256 entries of its row along the last axis. The kernel computes it on the array flattened to
  [131072, 256] (row `b * 1024 + f`), where the same function reads `a (r, j) * ∑ k, a (r, k)`. Flattening and
  unflattening keep the last axis and only renumber the rows, so the row sums are sums of the same 256 entries in the same
  order: no law of the extended reals beyond equality of the summands is used, and nothing here needs the inputs finite.
-/
import Idealize.ShloMosaic.PureOps.Ideal
import Idealize.ShloMosaic.Lib.ValueIdx
import Idealize.ShloMosaic.Lib.Pipeline.Value

noncomputable section

namespace Cert.RowScale

open Idealize.ShloMosaic Idealize.ShloMosaic.ValueIdx

/-- The argument's shape, and the shape of its flattening to rows. -/
abbrev T3 : Shape := ⟨3, ![128, 1024, 256]⟩
abbrev T2 : Shape := ⟨2, ![131072, 256]⟩

/-- Each entry times the sum of its row along the last axis, on the rank-3 array. -/
def scaled3 (x : T3.Idx → EReal) : T3.Idx → EReal :=
  fun i => x i * ∑ k : Fin 256, x (ix3 (i 0) (i 1) k)

/-- The same on the array of rows. -/
def scaled2 (a : T2.Idx → EReal) : T2.Idx → EReal :=
  fun i => a i * ∑ k : Fin 256, a (ix2 (i 0) k)

/-- Row `b * 1024 + f` of the flattened array is row (b, f) of the rank-3 one. -/
abbrev row (b : Fin 128) (f : Fin 1024) : Fin 131072 := ⟨b.val * 1024 + f.val, by omega⟩

/-- The flattened array at (row b f, j) is the array at (b, f, j): both sit at offset ((b * 1024 + f) * 256 + j). -/
theorem flat_read {α : Type} (x : T3.Idx → α) (h : T3.ShapeCasts T2) (b : Fin 128) (f : Fin 1024) (j : Fin 256) :
    shapeCast T2 x h (ix2 (row b f) j) = x (ix3 b f j) :=
  shapeCast_apply x h _ _ (by
    rw [Shape.rowMajor_val_three, Shape.rowMajor_val_two]
    show (b.val * 1024 + f.val) * 256 + j.val = (b.val * 1024 + f.val) * 256 + j.val
    rfl)

/-- An array of rows, unflattened, at (b, f, j) is the array of rows at (row b f, j). -/
theorem unflat_read {α : Type} (a : T2.Idx → α) (h : T2.ShapeCasts T3) (b : Fin 128) (f : Fin 1024) (j : Fin 256) :
    shapeCast T3 a h (ix3 b f j) = a (ix2 (row b f) j) :=
  shapeCast_apply a h _ _ (by
    rw [Shape.rowMajor_val_three, Shape.rowMajor_val_two]
    show (b.val * 1024 + f.val) * 256 + j.val = (b.val * 1024 + f.val) * 256 + j.val
    rfl)

/-- Flatten, scale each row by its sum, unflatten: that is scaling each last-axis row of the rank-3 array by its sum. -/
theorem unflat_scaled2_flat (x : T3.Idx → EReal) (h : T3.ShapeCasts T2) (h' : T2.ShapeCasts T3) :
    shapeCast T3 (scaled2 (shapeCast T2 x h)) h' = scaled3 x := by
  funext i
  obtain ⟨b, f, j, rfl⟩ : ∃ (b : Fin 128) (f : Fin 1024) (j : Fin 256), i = ix3 b f j := ⟨i 0, i 1, i 2, eq_ix3 i⟩
  rw [unflat_read]
  show shapeCast T2 x h (ix2 (row b f) j) * ∑ k : Fin 256, shapeCast T2 x h (ix2 (row b f) k)
    = x (ix3 b f j) * ∑ k : Fin 256, x (ix3 b f k)
  rw [flat_read]
  exact congrArg (x (ix3 b f j) * ·) (Finset.sum_congr rfl fun k _ => flat_read x h b f k)

/-- What a block of rows computes is the block of `scaled2`: if a block `x0` of 4096 rows is the array of rows `a` read
    through an embedding `e` that keeps the column and sends equal block rows to equal array rows, then each entry of the
    block times its block-row sum is `scaled2 a` at the embedded index. -/
theorem block_scaled2 (a : T2.Idx → EReal) (x0 : (⟨2, ![4096, 256]⟩ : Shape).Idx → EReal)
    (e : (⟨2, ![4096, 256]⟩ : Shape).Idx → T2.Idx) (hx : ∀ y, x0 y = a (e y))
    (hrow : ∀ y y', y 0 = y' 0 → (e y) 0 = (e y') 0) (hcol : ∀ y, ((e y) 1).val = (y 1).val)
    (y : (⟨2, ![4096, 256]⟩ : Shape).Idx) :
    x0 y * ∑ k : Fin 256, x0 (ix2 (y 0) k) = scaled2 a (e y) := by
  unfold scaled2
  rw [hx y]
  refine congrArg (a (e y) * ·) (Finset.sum_congr rfl fun k _ => ?_)
  rw [hx]
  refine congrArg a (funext fun d => ?_)
  match d with
  | ⟨0, _⟩ => exact hrow (ix2 (y 0) k) y rfl
  | ⟨1, _⟩ => exact Fin.ext (hcol (ix2 (y 0) k))

end Cert.RowScale

end
-- ==== Proof.Payload.lean ====
/-
  What the kernel body stores, read at an index.

  The body loads a block `x0` of 4096 rows by 256 lanes, sums each row over the lane axis (from the zero word, which is the
  sum's neutral element, so at the extended reals the lane reduction is the plain sum of the row's 256 entries), turns the 4096
  sums into a column, repeats the column across the 256 lanes and multiplies by `x0`. At row `p`, lane `q` that is
  `x0 (p, q) * ∑ k, x0 (p, k)`.
-/
import proofs.«147979_j83330955477234_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.RowValue

open Idealize.ShloMosaic Idealize.ShloMosaic.ValueIdx Cert.KernelIdeal Cert.KernelIdeal.Gen

/-- A lane sum of a [4096, 256] block at row `p` is the sum of that row's 256 entries. -/
theorem laneSum_apply (v : FVec Ideal S4096x256 .f32) (h : S4096x256.Reduces [1] S4096) (hφ : FKind.Formats .f32)
    (hacc : (0x00000000#32 : BitVec 32) = FKind.add.neutral .f32 hφ) (p : Fin 4096) :
    multiReduction (F := Ideal) .add [1] S4096 v 0x00000000#32 h hφ hacc (ix1 p) = ∑ k : Fin 256, v (ix2 p k) :=
  (Ideal.multiReduction_add_single v _ h hφ hacc (ix1 p)).trans
    (Finset.sum_congr rfl fun k _ => congrArg v (funext fun a => Fin.ext (by
      match a with
      | ⟨0, _⟩ => rfl
      | ⟨1, _⟩ => rfl)))

/-- A vector of 4096 entries cast to a column reads, at (p, 0), entry `p`: both sit at offset `p`. -/
theorem column_apply {α : Type} (v : S4096.Idx → α) (h : S4096.ShapeCasts S4096x1) (p : Fin 4096) (z : Fin 1) :
    shapeCast S4096x1 v h (ix2 p z) = v (ix1 p) :=
  shapeCast_apply v h _ _ (by
    rw [Shape.rowMajor_val_one, Shape.rowMajor_val_two]
    show p.val = p.val * 1 + z.val
    omega)

/-- A column repeated across 256 lanes reads, at (p, q), the column's entry (p, 0). -/
theorem repeat_apply {α : Type} (v : S4096x1.Idx → α) (h : S4096x1.Broadcasts S4096x256) (p : Fin 4096) (q : Fin 256) :
    broadcastTo S4096x256 v h (ix2 p q) = v (ix2 p (0 : Fin 1)) :=
  broadcastTo_apply v h _ _ (fun a => match a with
    | ⟨0, _⟩ => by show p.val = if (4096 : Nat) = 1 then 0 else p.val; rw [if_neg (by decide)]
    | ⟨1, _⟩ => by show (0 : Nat) = if (1 : Nat) = 1 then 0 else q.val; rw [if_pos rfl])

/-- The stored value at row `p`, lane `q`: the entry times its row's sum. -/
theorem pay_apply (x0 : FVec Ideal S4096x256 .f32) (p : Fin 4096) (q : Fin 256) :
    k0_pay1 (F := Ideal) x0 (ix2 p q) = x0 (ix2 p q) * ∑ k : Fin 256, x0 (ix2 p k) := by
  unfold k0_pay1
  dsimp only
  rw [shapeCast_self, ValueIdx.mulf_apply]
  refine congrArg (x0 (ix2 p q) * ·) ?_
  refine (repeat_apply _ _ p q).trans ?_
  refine (column_apply _ _ p 0).trans ?_
  exact laneSum_apply x0 _ _ _ p

/-- The same at any index of the block. -/
theorem pay_apply_at (x0 : FVec Ideal S4096x256 .f32) (y : S4096x256.Idx) :
    k0_pay1 (F := Ideal) x0 y = x0 y * ∑ k : Fin 256, x0 (ix2 (y 0) k) := by
  obtain ⟨p, q, rfl⟩ : ∃ (p : Fin 4096) (q : Fin 256), y = ix2 p q := ⟨y 0, y 1, eq_ix2 y⟩
  exact pay_apply x0 p q

end Cert.KernelIdeal.RowValue

end
-- ==== Proof.KernelValue.lean ====
/-
  The kernel's result array as one function of its argument.

  The program flattens the argument to 131072 rows of 256, runs the body on 32 blocks of 4096 rows, and unflattens the
  array of rows it wrote. Grid point `t` reads block `t` of the rows and writes block `t` of the output, both at rows
  `t * 4096 ..< (t + 1) * 4096` and all 256 lanes; a row never straddles two blocks, so what the body stores — each entry
  times the sum of its block row — is, entry for entry, `scaled2` of the whole array of rows read through the block. The 32
  blocks cover every row, so the output array ends at `scaled2` of the rows, and the program's result at its unflattening,
  which is `scaled3` of the argument.
-/
import proofs.«147979_j83330955477234_1_alg».proof.Proof.Gen.KernelIdeal.Frame
import proofs.«147979_j83330955477234_1_alg».proof.Proof.Payload
import proofs.«147979_j83330955477234_1_alg».proof.Proof.Spec
import Idealize.ShloMosaic.Lib.Pipeline.Value
import Idealize.ShloMosaic.Lib.StableHlo.Run

set_option maxRecDepth 16384

noncomputable section

namespace Cert.KernelIdeal.RowValue

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-! ## One block -/

theorem origin_zero : (![0, 0] : Fin 2 → Nat) = fun _ => 0 := funext fun a => by fin_cases a <;> rfl

/-- The two windows move together: at every grid point the input's and the output's block indices agree on both axes, the
    lane axis is never blocked, and the row-block index stays below 32. -/
theorem block_indices : ∀ t : Fin cfg0.N, win0_0.index t (0 : Fin 2) = win0_1.index t (0 : Fin 2)
    ∧ win0_0.index t (1 : Fin 2) = win0_1.index t (1 : Fin 2)
    ∧ win0_1.index t (1 : Fin 2) = 0 ∧ win0_1.index t (0 : Fin 2) ≤ 31 :=
  (by decide +kernel : ∀ t : Fin grid0.N, _)

/-- Every one of the 32 row blocks is some grid point's. -/
theorem block_onto : ∀ q0 : Fin 32, ∃ t : Fin cfg0.N, win0_1.index t = ![q0.val, 0] :=
  (by decide +kernel : ∀ q0 : Fin 32, ∃ t : Fin grid0.N, win0_1.index t = ![q0.val, 0])

/-- What grid point `t` writes back is block `t` of `scaled2` of the array of rows as the region finds it. -/
theorem flushed_eq (c : Dev nD) (t : Fin cfg0.N) :
    (dats m 0 c).flushed 1 t = ((cfg0.win 1).blk t).view.read (Elt Ideal) (Cert.RowScale.scaled2 (V m c main_v0)) := by
  show (cfg0.win 1).cut (grid0.coords t) ((dats m 0 c).after 1 t) = _
  rw [after0_1]
  unfold out0_1
  rw [View.canon_unit_zero origin_zero]
  simp only [View.ld_unit_zero (S := S4096x256) origin_zero]
  obtain ⟨e0, e1, e2, e3⟩ := block_indices t
  funext j
  refine (pay_apply_at (iblk m c 0 t) j).trans ?_
  refine Cert.RowScale.block_scaled2 (V m c main_v0) (iblk m c 0 t) (((cfg0.win 1).blk t).view.emb) (fun y => ?_)
    (fun y y' h => ?_) (fun y => ?_) j
  · have h0 : ((cfg0.win 0).blk t).view.emb y = ((cfg0.win 1).blk t).view.emb y := by
      funext a; apply Fin.ext
      match a with
      | ⟨0, _⟩ => show win0_0.index t (0 : Fin 2) * 4096 + 1 * (y 0).val = win0_1.index t (0 : Fin 2) * 4096 + 1 * (y 0).val; omega
      | ⟨1, _⟩ => show win0_0.index t (1 : Fin 2) * 256 + 1 * (y 1).val = win0_1.index t (1 : Fin 2) * 256 + 1 * (y 1).val; omega
    show V m c main_v0 (((cfg0.win 0).blk t).view.emb y) = V m c main_v0 (((cfg0.win 1).blk t).view.emb y)
    rw [h0]
  · apply Fin.ext
    show win0_1.index t (0 : Fin 2) * 4096 + 1 * (y 0).val = win0_1.index t (0 : Fin 2) * 4096 + 1 * (y' 0).val
    rw [h]
  · show win0_1.index t (1 : Fin 2) * 256 + 1 * (y 1).val = (y 1).val
    omega

/-! ## The 32 blocks cover the rows -/

/-- A row index is in point `t`'s block iff each coordinate is in the block's range on its axis. -/
theorem mem_block (t : Fin cfg0.N) (i : S131072x256.Idx) :
    i ∈ ((cfg0.win 1).blk t).view.set ↔ ∀ a : Fin 2, win0_1.index t a * S4096x256.size a ≤ (i a).val ∧ (i a).val < win0_1.index t a * S4096x256.size a + S4096x256.size a := by
  show i ∈ ((View.whole main_v1).slice (win0_1.rect t)).set ↔ _
  rw [View.set_slice_whole, Rect.mem_set_unit]
  exact Iff.rfl

/-- Row `r` lies in the block of the point whose row-block index is `r / 4096`. -/
theorem covered (i : S131072x256.Idx) :
    ∃ t : Fin cfg0.N, (cfg0.win 1).flush t = true ∧ i ∈ ((cfg0.win 1).blk t).view.set := by
  have hi0 : (i 0).val < 131072 := (i 0).isLt
  have hi1 : (i 1).val < 256 := (i 1).isLt
  obtain ⟨t, ht⟩ := block_onto ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 256 ≤ (i 1).val ∧ (i 1).val < win0_1.index t (1 : Fin 2) * 256 + 256; omega

/-- The output array of rows after the run. -/
theorem rows_after (c : Dev nD) : (dats m 0 c).arrAt 1 cfg0.N = Cert.RowScale.scaled2 (V m c main_v0) :=
  (dats m 0 c).arrAt_eq_of_cover 1 _ (fun t _ => flushed_eq m c t) covered

/-! ## The reshapes around the region -/

/-- The region finds, as its array of rows, the argument flattened. -/
theorem rows_entry (c : Dev nD) :
    (V m c main_v0 : S131072x256.Idx → EReal)
      = shapeCast S131072x256 (m ((c : Thread nD τ).loc main_arg0)) shapeCasts_S128x1024x256_S131072x256 := by
  show StableHlo.after hostOps0 (fun b => m (c, b)) (Proc.devRef .tc main_v0) = _
  after_results
  rfl

/-- The program's result is the output array of rows, unflattened. -/
theorem result_tail (c : Dev nD) :
    (Pipeline.afterTail₀ cfgs (dats m) 0 (V0 m) [hostOps1] c main_v2 : S128x1024x256.Idx → EReal)
      = shapeCast S128x1024x256 ((dats m 0 c).arrAt 1 cfg0.N) shapeCasts_S131072x256_S128x1024x256 := by
  unfold Pipeline.afterTail₀
  show StableHlo.after hostOps1 _ (Proc.devRef .tc main_v2) = _
  after_results
  exact congrArg (fun a => shapeCast S128x1024x256 a shapeCasts_S131072x256_S128x1024x256)
    (Pipeline.withArrays_arr spec0 launch0.win.arr_inj c (V0 m c) (fun w => (dats m 0 c).arrAt w cfg0.N) 1)

/-- The program's result: each entry of the argument times the sum of its last-axis row. -/
theorem result_eq (c : Dev nD) :
    (Pipeline.afterTail₀ cfgs (dats m) 0 (V0 m) [hostOps1] c main_v2 : S128x1024x256.Idx → EReal)
      = Cert.RowScale.scaled3 (m ((c : Thread nD τ).loc main_arg0)) := by
  rw [result_tail, rows_after, rows_entry]
  exact Cert.RowScale.unflat_scaled2_flat _ _ _

/-! ## The run, read -/

/-- Every weakly fair execution of the program terminates with its result at `scaled3` of the argument and the argument
    unchanged: the generated frame run with its post read through the lemmas above. -/
theorem run : θ_run defs (onTc (τ := τ) (main (F := Ideal))) ⟨m, fun _ => 0, ρ⟩ fun r => ∀ c : Dev nD,
      r.2.mem ((c : Thread nD τ).loc main_v2) = Cert.RowScale.scaled3 (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.RowValue

end
-- ==== Proof.RefValue.lean ====
/-
  The reference computes `scaled3`.

  The reference sums the argument over its last axis starting from the constant zero, re-inserts that axis as a unit axis,
  repeats it 256 times and multiplies by the argument. Read at (b, f, j), stage by stage: the product is
  `x (b, f, j)` times the repeated sum at (b, f, j), which is the unit-axis sum at (b, f, 0), which is the sum at (b, f),
  which is `0 + ∑ k, x (b, f, k)`. The zero word denotes the extended real 0, so the initial value drops out.
-/
import proofs.«147979_j83330955477234_1_alg».proof.Proof.Gen.ReferenceIdeal.Run
import proofs.«147979_j83330955477234_1_alg».proof.Proof.Gen.ReferenceIdeal.Read
import proofs.«147979_j83330955477234_1_alg».proof.Proof.Spec

noncomputable section

namespace Cert.ReferenceIdeal.RowValue

open Idealize.ShloMosaic Idealize.ShloMosaic.ValueIdx Cert.ReferenceIdeal Cert.ReferenceIdeal.Gen Cert.ReferenceIdeal.Read

/-- The reference's result, as the last stage of its run, is each entry times the sum of its last-axis row. -/
theorem result_eq (x : (⟨S128x1024x256, .f32⟩ : BufTy).Contents (Elt Ideal)) :
    val_main_v3 (F := Ideal) x = Cert.RowScale.scaled3 x := by
  funext i
  rw [val_main_v3_apply, val_main_v2_apply, val_main_v1_apply, val_main_v0_apply, val_main_cst_apply]
  show x i * (Ideal.ofBits .f32 0x00000000#32 + ∑ k : Fin 256, x (idx_main_v0 (idx_main_v1 (idx_main_v2 i)) k))
    = x i * ∑ k : Fin 256, x (ix3 (i 0) (i 1) k)
  rw [Ideal.ofBits_zero_f32, zero_add]
  refine congrArg (x i * ·) (Finset.sum_congr rfl fun k _ => congrArg x (funext fun a => Fin.ext ?_))
  match a with
  | ⟨0, _⟩ => rfl
  | ⟨1, _⟩ => rfl
  | ⟨2, _⟩ => rfl

end Cert.ReferenceIdeal.RowValue

end
-- ==== Proof.lean ====
/-
  The certificate: a kernel that multiplies each entry of a [128, 1024, 256] array by the sum of the 256 entries of its
  last-axis row, against the same expression written with `jnp.sum (keepdims)`.

  At the extended reals both programs compute `x (b, f, j) * ∑ k, x (b, f, k)` (Proof/Spec.lean, `scaled3`). The kernel
  gets there on the array flattened to 131072 rows, 4096 rows per grid point, its lane reduction starting from the zero word
  (Proof/Payload.lean, Proof/KernelValue.lean); the reference sums from the constant zero, which adds nothing
  (Proof/RefValue.lean). The two sides sum the same 256 entries in the same order and differ only by the renumbering of rows, so
  no law that could fail at an infinity is used and the precondition (finite inputs) is never opened.

  The three frames are the generated ones (the reference's is its generated run with the result dropped); the idealization
  rewrote nothing, so `preserves` is `True`; `algebraic` states both runs at the same function of the shared argument.
-/
import proofs.«147979_j83330955477234_1_alg».proof.Defs
import proofs.«147979_j83330955477234_1_alg».proof.Proof.Gen.Kernel
import proofs.«147979_j83330955477234_1_alg».proof.Proof.Gen.Kernel.Skeleton
import proofs.«147979_j83330955477234_1_alg».proof.Proof.Gen.Kernel.Launch
import proofs.«147979_j83330955477234_1_alg».proof.Proof.Gen.Kernel.Points
import proofs.«147979_j83330955477234_1_alg».proof.Proof.Gen.Kernel.Frame
import proofs.«147979_j83330955477234_1_alg».proof.Proof.Gen.KernelIdeal
import proofs.«147979_j83330955477234_1_alg».proof.Proof.Gen.KernelIdeal.Skeleton
import proofs.«147979_j83330955477234_1_alg».proof.Proof.Gen.KernelIdeal.Launch
import proofs.«147979_j83330955477234_1_alg».proof.Proof.Gen.KernelIdeal.Points
import proofs.«147979_j83330955477234_1_alg».proof.Proof.Gen.KernelIdeal.Frame
import proofs.«147979_j83330955477234_1_alg».proof.Proof.Gen.ReferenceIdeal
import proofs.«147979_j83330955477234_1_alg».proof.Proof.Gen.ReferenceIdeal.Run
import proofs.«147979_j83330955477234_1_alg».proof.Proof.Gen.ReferenceIdeal.Read
import proofs.«147979_j83330955477234_1_alg».proof.Proof.Gen.Pre_finite_inputs
import proofs.«147979_j83330955477234_1_alg».proof.Proof.Spec
import proofs.«147979_j83330955477234_1_alg».proof.Proof.Payload
import proofs.«147979_j83330955477234_1_alg».proof.Proof.KernelValue
import proofs.«147979_j83330955477234_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument, both programs end with their result at `scaled3` of it. -/
theorem algebraic : Cert.algebraic_KernelIdeal_ReferenceIdeal := by
  intro m ρ m' ρ' _ hagree
  refine ⟨fun c => Cert.RowScale.scaled3 (m ((c.tc : Thread Cert.KernelIdeal.nD Cert.KernelIdeal.τ).loc Cert.KernelIdeal.main_arg0)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RowValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
